-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2500x256 : Shape := ⟨2, ![2500, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S2500x256 : S_.BroadcastsInDim S2500x256 (![] : Fin 0 → Fin S2500x256.rank)
  reducesTo_S2500x256_S_d0_1 : S2500x256.ReducesTo [0, 1] S_

variable [Facts]

def fn {F : FTy → Type} [FloatOps F] (main_arg0 : FVec F S16384x256 .f32) (main_arg1 : FVec F S2500x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S2500x256 .f32 := Host.absf main_arg1
  let main_cst_0 : FVec F S_ .f32 := constant S_ .f32 0x7F800000#32
  let main_v5 : FVec F S2500x256 .f32 := broadcastInDim S2500x256 ![] bcast_S_S2500x256 main_cst_0
  let main_v6 : IVec S2500x256 1 := cmpf .olt main_v4 main_v5
  let main_c_1 : IVec S_ 1 := constantI S_ 1 1#1
  let main_v7 : IVec S_ 1 := (fun x v => Host.reduce IntOp.andi x v reducesTo_S2500x256_S_d0_1 h_S_) main_v6 main_c_1
  let main_v8 : IVec S_ 1 := andi main_v3 main_v7
  main_v8
-- ==== Kernel.lean ====
abbrev S16384x256 : Shape := ⟨2, ![16384, 256]⟩
abbrev S2500x256 : Shape := ⟨2, ![2500, 256]⟩
abbrev S_ : Shape := ⟨0, ![]⟩
abbrev S2560x256 : Shape := ⟨2, ![2560, 256]⟩
abbrev S256x2560 : Shape := ⟨2, ![256, 2560]⟩
abbrev S16384x2560 : Shape := ⟨2, ![16384, 2560]⟩
abbrev S1024x256 : Shape := ⟨2, ![1024, 256]⟩
abbrev S1024x2560 : Shape := ⟨2, ![1024, 2560]⟩
abbrev S1024 : Shape := ⟨1, ![1024]⟩
abbrev S1024x1 : Shape := ⟨2, ![1024, 1]⟩
abbrev S2560 : Shape := ⟨1, ![2560]⟩
abbrev S1x2560 : Shape := ⟨2, ![1, 2560]⟩
abbrev S16384x2500 : Shape := ⟨2, ![16384, 2500]⟩

abbrev nBuf : Space → Nat
  | .hbm => 8
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S2500x256, .f32⟩
  | .hbm, ⟨2, _⟩ => ⟨S_, .i32⟩
  | .hbm, ⟨3, _⟩ => ⟨S_, .f32⟩
  | .hbm, ⟨4, _⟩ => ⟨S2560x256, .f32⟩
  | .hbm, ⟨5, _⟩ => ⟨S256x2560, .f32⟩
  | .hbm, ⟨6, _⟩ => ⟨S16384x2560, .f32⟩
  | .hbm, ⟨7, _⟩ => ⟨S16384x2500, .f32⟩
  | .local _ .vmem, ⟨0, _⟩ => ⟨S1024x256, .f32⟩
  | .local _ .vmem, ⟨1, _⟩ => ⟨S1024x256, .f32⟩
  | .local _ .vmem, ⟨2, _⟩ => ⟨S256x2560, .f32⟩
  | .local _ .vmem, ⟨3, _⟩ => ⟨S1024x2560, .f32⟩
  | .local _ .vmem, ⟨4, _⟩ => ⟨S1024x2560, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S2500x256_S2560x256_0600_000 : S2500x256.Pads (![0, 0] : Fin 2 → Nat) ![60, 0] ![0, 0] S2560x256
  h_S_ : 0 < S_.numel
  transposes_S2560x256_S256x2560_1_0 : S2560x256.Transposes [1, 0] S256x2560
  inb_S1024x256_S1024x256_0_0 : ∀ a, (![0, 0] : Fin 2 → Nat) a + S1024x256.size a ≤ S1024x256.size a
  h_S1024x256 : 0 < S1024x256.numel
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  reduces_S1024x256_S1024 : S1024x256.Reduces [1] S1024
  shapeCasts_S1024_S1024x1 : S1024.ShapeCasts S1024x1
  reduces_S256x2560_S2560 : S256x2560.Reduces [0] S2560
  shapeCasts_S2560_S1x2560 : S2560.ShapeCasts S1x2560
  bitsLt_bf16_f32 : FTy.bits .bf16 < FTy.bits .f32
  broadcasts_S1024x1_S1024x2560 : S1024x1.Broadcasts S1024x2560
  broadcasts_S1x2560_S1024x2560 : S1x2560.Broadcasts S1024x2560
  inb_S1024x2560_S1024x2560_0_0 : ∀ a, (![0, 0] : Fin 2 → Nat) a + S1024x2560.size a ≤ S1024x2560.size a
  h_S1024x2560 : 0 < S1024x2560.numel
  slices_S16384x2560_S16384x2500_0_0 : S16384x2560.Slices ![0, 0] S16384x2500
  dot_S1024x256_S256x2560_S1024x2560_1_0_0_1_n_n_wf : DotDims.WF S1024x256 S256x2560 S1024x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2560.size a ≤ S256x2560.size a
  hwx0_1 : ∀ i : grid0.Coords, EltTy.bits .f32 = 32 ∨ (Rect.block (s := S256x2560) S256x2560.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2560.size a ≤ S16384x2560.size a
  hwx0_2 : ∀ i : grid0.Coords, EltTy.bits .f32 = 32 ∨ (Rect.block (s := S16384x2560) S1024x2560.size (cc0_transform_2 i) (hinb0_2 i)).WholeWords (EltTy.packing .f32)

variable [Facts₀]

def dot_S1024x256_S256x2560_S1024x2560_1_0_0_1_n_n : DotDims S1024x256 S256x2560 S1024x2560 where
  lhsContracting := [1]
  rhsContracting := [0]
  lhsNonContracting := [0]
  rhsNonContracting := [1]
  lhsBatch := []
  rhsBatch := []
  wf := dot_S1024x256_S256x2560_S1024x2560_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2560.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2560.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S2500x256 : Shape := ⟨2, ![2500, 256]⟩
abbrev S_ : Shape := ⟨0, ![]⟩
abbrev S16384 : Shape := ⟨1, ![16384]⟩
abbrev S2500 : Shape := ⟨1, ![2500]⟩
abbrev S16384x1 : Shape := ⟨2, ![16384, 1]⟩
abbrev S1x2500 : Shape := ⟨2, ![1, 2500]⟩
abbrev S16384x2500 : Shape := ⟨2, ![16384, 2500]⟩
abbrev S256x2500 : Shape := ⟨2, ![256, 2500]⟩

abbrev nBuf : Space → Nat
  | .hbm => 23
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2500x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S2500x256, .f32⟩
  | .hbm, ⟨6, _⟩ => ⟨S_, .f32⟩
  | .hbm, ⟨7, _⟩ => ⟨S2500, .f32⟩
  | .hbm, ⟨8, _⟩ => ⟨S16384x1, .f32⟩
  | .hbm, ⟨9, _⟩ => ⟨S1x2500, .f32⟩
  | .hbm, ⟨10, _⟩ => ⟨S16384x2500, .f32⟩
  | .hbm, ⟨11, _⟩ => ⟨S16384x2500, .f32⟩
  | .hbm, ⟨12, _⟩ => ⟨S16384x2500, .f32⟩
  | .hbm, ⟨13, _⟩ => ⟨S256x2500, .f32⟩
  | .hbm, ⟨14, _⟩ => ⟨S16384x2500, .f32⟩
  | .hbm, ⟨15, _⟩ => ⟨S_, .f32⟩
  | .hbm, ⟨16, _⟩ => ⟨S16384x2500, .f32⟩
  | .hbm, ⟨17, _⟩ => ⟨S16384x2500, .f32⟩
  | .hbm, ⟨18, _⟩ => ⟨S16384x2500, .f32⟩
  | .hbm, ⟨19, _⟩ => ⟨S_, .f32⟩
  | .hbm, ⟨20, _⟩ => ⟨S16384x2500, .f32⟩
  | .hbm, ⟨21, _⟩ => ⟨S16384x2500, .f32⟩
  | .hbm, ⟨22, _⟩ => ⟨S16384x2500, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  reducesTo_S2500x256_S2500_d1 : S2500x256.ReducesTo [1] S2500
  bcast_S16384_S16384x1_0 : S16384.BroadcastsInDim S16384x1 (![0] : Fin 1 → Fin S16384x1.rank)
  bcast_S2500_S1x2500_1 : S2500.BroadcastsInDim S1x2500 (![1] : Fin 1 → Fin S1x2500.rank)
  bcast_S16384x1_S16384x2500_0_1 : S16384x1.BroadcastsInDim S16384x2500 (![0, 1] : Fin 2 → Fin S16384x2500.rank)
  bcast_S1x2500_S16384x2500_0_1 : S1x2500.BroadcastsInDim S16384x2500 (![0, 1] : Fin 2 → Fin S16384x2500.rank)
  transposes_S2500x256_S256x2500_1_0 : S2500x256.Transposes [1, 0] S256x2500
  bcast_S_S16384x2500 : S_.BroadcastsInDim S16384x2500 (![] : Fin 0 → Fin S16384x2500.rank)
  dot_S16384x256_S256x2500_S16384x2500_1_0_0_1_n_n_wf : DotDims.WF S16384x256 S256x2500 S16384x2500 [1] [0] [0] [1] [] []

variable [Facts₀]

def dot_S16384x256_S256x2500_S16384x2500_1_0_0_1_n_n : DotDims S16384x256 S256x2500 S16384x2500 where
  lhsContracting := [1]
  rhsContracting := [0]
  lhsNonContracting := [0]
  rhsNonContracting := [1]
  lhsBatch := []
  rhsBatch := []
  wf := dot_S16384x256_S256x2500_S16384x2500_1_0_0_1_n_n_wf

class Facts : Prop extends Facts₀ where

variable [Facts]
-- ==== Proof.Law.lean ====
/-
  The law that joins the two programs, over the reals.

  For real rows `a`, `b` of one length and a real floor `c ≥ 0`, put
    `s = ∑ a·(-2·b) + ∑ a·a + ∑ b·b`        (the kernel's grouping)
    `s' = (0 + ∑ a·a) + (0 + ∑ b·b) - 2·∑ a·b`  (the reference's grouping).
  Distributing `-2` over the sum gives `s = s'`, so `d = max s c = max s' c` is one real number, and `d ≥ c ≥ 0`.
  For a real `d ≥ 0` the product `d · d^(-1/2)` is `√d`: at `d > 0` because `d = √d · √d`; at `d = 0` the
  reciprocal root is `+∞` and `0 · (+∞) = 0 = √0` on the extended reals.
  Both steps fail off the reals (distributivity at an infinite entry, `∞ · 0 ≠ ∞`), which is why the rows are real here.
-/
import Idealize.ShloMosaic.PureOps.Ideal

noncomputable section

namespace Cert.Dist

open Idealize.ShloMosaic

/-- The inclusion of the reals in the extended reals commutes with finite sums. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- … and with the maximum of two reals. -/
theorem coe_max (x y : ℝ) : max (x : EReal) (y : EReal) = ((max x y : ℝ) : EReal) :=
  (EReal.coe_strictMono.monotone.map_max).symm

/-- A real `d ≥ 0` times its reciprocal root is its root, the corner `d = 0` included. -/
theorem mul_rsqrt {d : ℝ} (h : 0 ≤ d) : (d : EReal) * Ideal.rsqrt (d : EReal) = Ideal.sqrt (d : EReal) := by
  rw [Ideal.rsqrt_coe, Ideal.sqrt_coe, if_neg (not_lt.mpr h), if_neg (not_lt.mpr h)]
  by_cases h0 : d = 0
  · subst h0; simp
  · rw [if_neg h0, ← EReal.coe_mul]
    have hp : 0 < d := lt_of_le_of_ne h (Ne.symm h0)
    have hs : Real.sqrt d ≠ 0 := (Real.sqrt_pos.mpr hp).ne'
    congr 1
    rw [mul_inv_eq_iff_eq_mul₀ hs]
    exact (Real.mul_self_sqrt h).symm

/-- The two groupings of the squared distance are one real number. -/
theorem grouping {K : ℕ} (a b : Fin K → ℝ) :
    (∑ k, a k * (-2 * b k) + ∑ k, a k * a k) + ∑ k, b k * b k
      = ((0 + ∑ k, a k * a k) + (0 + ∑ k, b k * b k)) - 2 * ∑ k, a k * b k := by
  have h : ∑ k, a k * (-2 * b k) = -2 * ∑ k, a k * b k := by
    rw [Finset.mul_sum]; exact Finset.sum_congr rfl fun k _ => by ring
  rw [h]; ring

/-- THE LAW: for real rows and a real floor `c ≥ 0`, the kernel's `d · d^(-1/2)` over its grouping is the
    reference's `√` over its own. -/
theorem law {K : ℕ} (a b : Fin K → ℝ) {c : ℝ} (hc : 0 ≤ c) :
    (max ((∑ k, (a k : EReal) * (((-2 : ℝ) : EReal) * (b k : EReal)) + ∑ k, (a k : EReal) * (a k : EReal))
          + ∑ k, (b k : EReal) * (b k : EReal)) (c : EReal))
        * Ideal.rsqrt (max ((∑ k, (a k : EReal) * (((-2 : ℝ) : EReal) * (b k : EReal)) + ∑ k, (a k : EReal) * (a k : EReal))
          + ∑ k, (b k : EReal) * (b k : EReal)) (c : EReal))
      = Ideal.sqrt (max (((0 + ∑ k, (a k : EReal) * (a k : EReal)) + (0 + ∑ k, (b k : EReal) * (b k : EReal)))
          - ((2 : ℝ) : EReal) * ∑ k, (a k : EReal) * (b k : EReal)) (c : EReal)) := by
  have z : (0 : EReal) = ((0 : ℝ) : EReal) := rfl
  simp only [z, ← EReal.coe_mul, coe_sum, ← EReal.coe_add, ← EReal.coe_sub, coe_max]
  rw [grouping a b]
  exact mul_rsqrt (le_max_of_le_right hc)

end Cert.Dist

end
-- ==== Proof.Words.lean ====
/-
  The four float words the two programs spell, as the extended reals they denote: the zero the sums start
  from, the factor two of the reference, the factor minus two of the kernel, and the small positive floor
  both programs take the maximum with before the root.
-/
import Idealize.ShloMosaic.PureOps.Ideal

noncomputable section

namespace Cert.Dist.Words

open Idealize.ShloMosaic

/-- The all-zero word denotes `0`. -/
theorem zero : Ideal.ofBits .f32 0x00000000#32 = 0 := by
  simp [Ideal.ofBits, Ideal.ieee]

/-- `0x40000000` denotes the real `2`: significand `2^23`, exponent `128 - 127 - 23`. -/
theorem two : Ideal.ofBits .f32 0x40000000#32 = ((2 : ℝ) : EReal) := by
  simp [Ideal.ofBits, Ideal.ieee, -EReal.coe_mul]; norm_num

/-- `0xC0000000` is the same word with the sign bit set: the real `-2`. -/
theorem negTwo : Ideal.ofBits .f32 0xC0000000#32 = ((-2 : ℝ) : EReal) := by
  simp [Ideal.ofBits, Ideal.ieee, -EReal.coe_mul]; norm_num

/-- `0x2B8CBCCC` has a clear sign bit and exponent field `87`: it denotes the real
    `(2^23 + 834764) * 2^(87 - 127 - 23)`, which is not negative. Only that is used of it. -/
theorem floor : ∃ c : ℝ, 0 ≤ c ∧ Ideal.ofBits .f32 0x2B8CBCCC#32 = (c : EReal) := by
  refine ⟨9223372 * (2 : ℝ) ^ (-63 : ℤ), by positivity, ?_⟩
  simp [Ideal.ofBits, Ideal.ieee, -EReal.coe_mul]

end Cert.Dist.Words

end
-- ==== Proof.Spec.lean ====
/-
  The pairwise distance of the rows of `x` (B rows of length K) and the rows of `w` (N rows of length K), in the two
  groupings the programs compute it in, and that on real arrays they are one function.

  The kernel holds `w` transposed (and wider: extra zero columns), so its form takes a `K × N'` array `wt` and reads
  column `n` of it; its squared distance is `∑ x·(-2·wt) + ∑ x·x + ∑ wt·wt`, floored, and its result the floored value
  times its reciprocal root. The reference's form takes `w` itself: `(0 + ∑ x·x) + (0 + ∑ w·w) - 2·∑ x·w`, floored, then
  the root. Where column `n'` of `wt` is row `n` of `w` and both arrays hold reals, the two agree at `(b, n')` and `(b, n)`.
-/
import proofs.«178733_g80247168958748_cont_9to1c4b_500_18_alg».proof.Proof.Law
import proofs.«178733_g80247168958748_cont_9to1c4b_500_18_alg».proof.Proof.Words
import Idealize.ShloMosaic.Lib.ValueIdx

noncomputable section

namespace Cert.Dist

open Idealize.ShloMosaic Idealize.ShloMosaic.ValueIdx

variable {B K N N' : ℕ}

/-- The kernel's floored squared distance between row `b` of `x` and column `n` of `wt`. -/
def flooredSqK (x : (⟨2, ![B, K]⟩ : Shape).Idx → EReal) (wt : (⟨2, ![K, N']⟩ : Shape).Idx → EReal) (b : Fin B) (n : Fin N') : EReal :=
  max ((∑ k : Fin K, x (ix2 b k) * (Ideal.ofBits .f32 0xC0000000#32 * wt (ix2 k n)) + ∑ k : Fin K, x (ix2 b k) * x (ix2 b k))
      + ∑ k : Fin K, wt (ix2 k n) * wt (ix2 k n)) (Ideal.ofBits .f32 0x2B8CBCCC#32)

/-- The kernel's result at `(b, n)`: the floored squared distance times its reciprocal root. -/
def viaRsqrtAt (x : (⟨2, ![B, K]⟩ : Shape).Idx → EReal) (wt : (⟨2, ![K, N']⟩ : Shape).Idx → EReal) (b : Fin B) (n : Fin N') : EReal :=
  flooredSqK x wt b n * Ideal.rsqrt (flooredSqK x wt b n)

/-- The kernel's function of the row array and the transposed array, as an array. -/
def viaRsqrt (x : (⟨2, ![B, K]⟩ : Shape).Idx → EReal) (wt : (⟨2, ![K, N']⟩ : Shape).Idx → EReal) :
    (⟨2, ![B, N']⟩ : Shape).Idx → EReal := fun j => viaRsqrtAt x wt (j 0) (j 1)

/-- The reference's result at `(b, n)`: the root of its floored squared distance. -/
def viaSqrtAt (x : (⟨2, ![B, K]⟩ : Shape).Idx → EReal) (w : (⟨2, ![N, K]⟩ : Shape).Idx → EReal) (b : Fin B) (n : Fin N) : EReal :=
  Ideal.sqrt (max (((Ideal.ofBits .f32 0x00000000#32 + ∑ k : Fin K, x (ix2 b k) * x (ix2 b k))
        + (Ideal.ofBits .f32 0x00000000#32 + ∑ k : Fin K, w (ix2 n k) * w (ix2 n k)))
      - Ideal.ofBits .f32 0x40000000#32 * ∑ k : Fin K, x (ix2 b k) * w (ix2 n k)) (Ideal.ofBits .f32 0x2B8CBCCC#32))

/-- The reference's function of the two row arrays, as an array: THE value both programs end at. -/
def viaSqrt (x : (⟨2, ![B, K]⟩ : Shape).Idx → EReal) (w : (⟨2, ![N, K]⟩ : Shape).Idx → EReal) :
    (⟨2, ![B, N]⟩ : Shape).Idx → EReal := fun j => viaSqrtAt x w (j 0) (j 1)

/-- The kernel's value at `(b, n)` depends only on row `b` of the row array and column `n` of the transposed one: two pairs
    of arrays that agree there (a block of rows against the whole array, say) give the same value. -/
theorem viaRsqrtAt_congr {B' : ℕ} (x : (⟨2, ![B, K]⟩ : Shape).Idx → EReal) (X : (⟨2, ![B', K]⟩ : Shape).Idx → EReal)
    (wt WT : (⟨2, ![K, N']⟩ : Shape).Idx → EReal) (b : Fin B) (b' : Fin B') (n n' : Fin N')
    (hx : ∀ k, x (ix2 b k) = X (ix2 b' k)) (hw : ∀ k, wt (ix2 k n) = WT (ix2 k n')) :
    viaRsqrtAt x wt b n = viaRsqrtAt X WT b' n' := by
  unfold viaRsqrtAt flooredSqK
  simp only [hx, hw]

/-- On real arrays, where column `n'` of `wt` is row `n` of `w`, the kernel's value at `(b, n')` is the reference's at
    `(b, n)`: the words are `0`, `2`, `-2` and a real floor `≥ 0`, and the rest is the law over the reals. -/
theorem viaRsqrtAt_eq_viaSqrtAt (x : (⟨2, ![B, K]⟩ : Shape).Idx → EReal) (wt : (⟨2, ![K, N']⟩ : Shape).Idx → EReal)
    (w : (⟨2, ![N, K]⟩ : Shape).Idx → EReal) (hx : ∀ i, ∃ r : ℝ, x i = (r : EReal)) (hw : ∀ i, ∃ r : ℝ, w i = (r : EReal))
    (b : Fin B) (n : Fin N) (n' : Fin N') (hwt : ∀ k, wt (ix2 k n') = w (ix2 n k)) :
    viaRsqrtAt x wt b n' = viaSqrtAt x w b n := by
  choose a ha using hx
  choose e he using hw
  obtain ⟨c, hc, hcw⟩ := Words.floor
  unfold viaRsqrtAt viaSqrtAt flooredSqK
  simp only [hwt, ha, he, Words.zero, Words.two, Words.negTwo, hcw]
  exact law (fun k => a (ix2 b k)) (fun k => e (ix2 n k)) hc

end Cert.Dist

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.LibKeepdimsSum.lean ====
/-
  Row sums and column sums of a matrix, kept as a column / a row and broadcast back over a matrix, read at an index.
  At the extended reals a lane sum over one axis is the plain sum over that axis's coordinate; the unit axis a
  keepdims sum leaves and the broadcast over it only move the index. Generic in the extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KeepdimsSum

open Idealize.ShloMosaic Idealize.ShloMosaic.ValueIdx

variable {α : Type} {A B C : ℕ}

/-- An `[A]` array cast to a column `[A, 1]` reads, at `(p, u)`, the operand at `p`. -/
theorem shapeCast_a_a1_apply (x : (⟨1, ![A]⟩ : Shape).Idx → α) (h : (⟨1, ![A]⟩ : Shape).ShapeCasts ⟨2, ![A, 1]⟩)
    (p : Fin A) (u : Fin 1) : shapeCast ⟨2, ![A, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[A, 1]` broadcast to `[A, C]` reads, at `(p, q)`, the column's entry of row `p`. -/
theorem broadcastTo_a1_ac_apply (v : (⟨2, ![A, 1]⟩ : Shape).Idx → α) (h : (⟨2, ![A, 1]⟩ : Shape).Broadcasts ⟨2, ![A, C]⟩)
    (p : Fin A) (q : Fin C) : broadcastTo ⟨2, ![A, C]⟩ v h (ix2 p q) = v (ix2 p (0 : Fin 1)) := by
  refine broadcastTo_apply v h (ix2 p q) (ix2 p (0 : Fin 1)) fun ax => ?_
  match ax with
  | ⟨0, _⟩ =>
    show p.val = if A = 1 then 0 else p.val
    split
    · have := p.isLt; omega
    · rfl
  | ⟨1, _⟩ => rfl

variable {φ : FTy}

/-- The sum of each row of an `[A, B]` matrix, kept as a column and broadcast over `[A, C]`: at `(p, q)` it is the sum
    over `k` of the matrix's entries `(p, k)`. -/
theorem rowSum_bcast_apply (y : FVec Ideal (⟨2, ![A, B]⟩ : Shape) φ) (acc : BitVec φ.bits)
    (hr : (⟨2, ![A, B]⟩ : Shape).Reduces [1] ⟨1, ![A]⟩) (hφ : FKind.Formats φ) (hacc : acc = FKind.add.neutral φ hφ)
    (hc : (⟨1, ![A]⟩ : Shape).ShapeCasts ⟨2, ![A, 1]⟩) (hb : (⟨2, ![A, 1]⟩ : Shape).Broadcasts ⟨2, ![A, C]⟩)
    (p : Fin A) (q : Fin C) :
    broadcastTo (⟨2, ![A, C]⟩ : Shape) (shapeCast (⟨2, ![A, 1]⟩ : Shape) (multiReduction .add [1] (⟨1, ![A]⟩ : Shape) y acc hr hφ hacc) hc) hb (ix2 p q)
      = ∑ k : Fin B, y (ix2 p k) := by
  rw [broadcastTo_a1_ac_apply, shapeCast_a_a1_apply, Ideal.multiReduction_add_single]
  refine Finset.sum_congr rfl fun k _ => congrArg y (funext fun a => Fin.ext ?_)
  match a with
  | ⟨0, _⟩ => rfl
  | ⟨1, _⟩ => rfl

/-- The sum of each column of an `[A, B]` matrix, kept as a row and broadcast over `[C, B]`: at `(p, q)` it is the sum
    over `k` of the matrix's entries `(k, q)`. -/
theorem colSum_bcast_apply (y : FVec Ideal (⟨2, ![A, B]⟩ : Shape) φ) (acc : BitVec φ.bits)
    (hr : (⟨2, ![A, B]⟩ : Shape).Reduces [0] ⟨1, ![B]⟩) (hφ : FKind.Formats φ) (hacc : acc = FKind.add.neutral φ hφ)
    (hc : (⟨1, ![B]⟩ : Shape).ShapeCasts ⟨2, ![1, B]⟩) (hb : (⟨2, ![1, B]⟩ : Shape).Broadcasts ⟨2, ![C, B]⟩)
    (p : Fin C) (q : Fin B) :
    broadcastTo (⟨2, ![C, B]⟩ : Shape) (shapeCast (⟨2, ![1, B]⟩ : Shape) (multiReduction .add [0] (⟨1, ![B]⟩ : Shape) y acc hr hφ hacc) hc) hb (ix2 p q)
      = ∑ k : Fin A, y (ix2 k q) := by
  rw [broadcastTo_1b_ab_apply, shapeCast_a_1a_apply, Ideal.multiReduction_add_single]
  refine Finset.sum_congr rfl fun k _ => congrArg y (funext fun a => Fin.ext ?_)
  match a with
  | ⟨0, _⟩ => rfl
  | ⟨1, _⟩ => rfl

end Cert.KeepdimsSum

end
-- ==== Proof.Payload.lean ====
/-
  The kernel body's one store, read at an index of its `1024 × 2560` block: from the `1024 × 256` block `v0` of `x` and
  the whole transposed array `v1` (`256 × 2560`) it is the kernel's distance form of the two, `viaRsqrt v0 v1`.
  Three pieces meet at `(p, q)`: the matrix product of `v0` with `-2·v1` into a zero accumulator (the change to the
  narrower float format is the identity on the extended reals), the row sums of `v0²` kept as a column, and the column
  sums of `v1²` kept as a row; then the floor and the product with the reciprocal root, entry by entry.
-/
import proofs.«178733_g80247168958748_cont_9to1c4b_500_18_alg».proof.Proof.Gen.KernelIdeal.Skeleton
import proofs.«178733_g80247168958748_cont_9to1c4b_500_18_alg».proof.Proof.Spec
import proofs.«178733_g80247168958748_cont_9to1c4b_500_18_alg».proof.Proof.LibPlainDot
import proofs.«178733_g80247168958748_cont_9to1c4b_500_18_alg».proof.Proof.LibKeepdimsSum
import Idealize.ShloMosaic.Lib.Pipeline.Value

noncomputable section

namespace Cert.Dist.Kernel

open Idealize.ShloMosaic Idealize.ShloMosaic.ValueIdx Cert.KernelIdeal Cert.KernelIdeal.Gen

/-- The body's contraction is the plain rows-by-columns one. -/
theorem dot_eq_plain : dot_S1024x256_S256x2560_S1024x2560_1_0_0_1_n_n = DotDims.plain 1024 256 2560 := rfl

/-- The matrix product of the block with minus two times the transposed array, at `(p, q)`. -/
theorem product_apply (v0 : Vec Ideal S1024x256 .f32) (v1 : Vec Ideal S256x2560 .f32) (p : Fin 1024) (q : Fin 2560) :
    matmul dot_S1024x256_S256x2560_S1024x2560_1_0_0_1_n_n none (truncf .bf16 v0 bitsLt_bf16_f32)
        (truncf .bf16 (mulf (broadcast S256x2560 (Scalar.ofBits (F := Ideal) .f32 0xC0000000#32))
          (shapeCast S256x2560 v1 shapeCasts_S256x2560_S256x2560)) bitsLt_bf16_f32)
        (constant S1024x2560 .f32 0x00000000#32) (ix2 p q)
      = ∑ k : Fin 256, v0 (ix2 p k) * (Ideal.ofBits .f32 0xC0000000#32 * v1 (ix2 k q)) := by
  rw [dot_eq_plain, shapeCast_self]
  exact PlainDot.matmul_zero_apply none _ _ (ix2 p q)

/-- The payload at `(p, q)` is the kernel's distance form of the two loaded values there. -/
theorem pay_apply (v0 : Vec Ideal S1024x256 .f32) (v1 : Vec Ideal S256x2560 .f32) (p : Fin 1024) (q : Fin 2560) :
    k0_pay1 (F := Ideal) v0 v1 (ix2 p q) = viaRsqrt v0 v1 (ix2 p q) := by
  have hrow := KeepdimsSum.rowSum_bcast_apply (C := 2560) (mulf v0 v0) 0x00000000#32 reduces_S1024x256_S1024 (.inl rfl) rfl
    shapeCasts_S1024_S1024x1 broadcasts_S1024x1_S1024x2560 p q
  have hcol := KeepdimsSum.colSum_bcast_apply (C := 1024) (mulf (shapeCast S256x2560 v1 shapeCasts_S256x2560_S256x2560)
    (shapeCast S256x2560 v1 shapeCasts_S256x2560_S256x2560)) 0x00000000#32 reduces_S256x2560_S2560 (.inl rfl) rfl
    shapeCasts_S2560_S1x2560 broadcasts_S1x2560_S1024x2560 p q
  have hprod := product_apply v0 v1 p q
  unfold k0_pay1
  show FloatOps.mulf (FloatOps.maximumf (FloatOps.addf (FloatOps.addf _ _) _) _) (FloatOps.rsqrt (FloatOps.maximumf (FloatOps.addf (FloatOps.addf _ _) _) _)) = _
  rw [hprod, hrow, hcol, shapeCast_self]
  rfl

end Cert.Dist.Kernel

end
-- ==== Proof.KernelValue.lean ====
/-
  What the kernel program leaves in its result array.

  The region's second operand is the weights padded with 60 zero rows to 2560 rows and transposed: its entry `(k, n)`
  is `w (n, k)` for `n < 2500`. Grid point `t` reads rows `1024 t … 1024 t + 1023` of `x` and the whole transposed array,
  and writes rows `1024 t …` of the `16384 × 2560` intermediate: block `t` of the kernel's distance form of `x` and the
  transposed array. The sixteen blocks tile the intermediate (row `r` lies in block `r / 1024`), so after the region it
  is that form everywhere; the slice after the region keeps columns `0 … 2499`, exactly the columns that are rows of `w`.
-/
import proofs.«178733_g80247168958748_cont_9to1c4b_500_18_alg».proof.Proof.Gen.KernelIdeal.Frame
import proofs.«178733_g80247168958748_cont_9to1c4b_500_18_alg».proof.Proof.Payload
import Idealize.ShloMosaic.Lib.Pipeline.Value
import Idealize.ShloMosaic.Lib.KernelVsHost
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Dist.Kernel

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The transposed, padded weights the region finds -/

/-- The region's second operand is the host's transpose of the host's zero-padding of the weights. -/
theorem wt_eq (c : Dev nD) : (V m c main_v1 : S256x2560.Idx → EReal)
    = transpose S256x2560 [1, 0] (pad S2560x256 ![0, 0] ![60, 0] ![0, 0] (m ((c : Thread nD τ).loc main_arg1))
        (sitofp (F := Ideal) .f32 (constantI S_ 32 0#32)) pads_S2500x256_S2560x256_0600_000 h_S_) transposes_S2560x256_S256x2560_1_0 := by
  dsimp only [Gen.V, Gen.V0]
  simp only [Gen.hostOps0, Gen.hostOps0_1, Gen.hostOps0_2, List.flatten_cons, List.flatten_nil, List.append_nil, List.cons_append,
    List.nil_append]
  after_results
  rfl

/-- Its entry `(k, n')`, for a column `n' = n < 2500`, is the weights' entry `(n, k)`. -/
theorem wt_apply (c : Dev nD) (k : Fin 256) (n : Fin 2500) (n' : Fin 2560) (hn : n'.val = n.val) :
    (V m c main_v1 : S256x2560.Idx → EReal) (ix2 k n') = (m ((c : Thread nD τ).loc main_arg1) : S2500x256.Idx → EReal) (ix2 n k) := by
  rw [wt_eq]
  refine (transpose_ix2_apply _ _ k n').trans ?_
  exact pad_apply_of_inside _ _ _ _ _ _ _ (ix2 n' k) (ix2 n k) (fun a => by
    match a with
    | ⟨0, _⟩ => show n'.val = 0 + n.val * (0 + 1); omega
    | ⟨1, _⟩ => show k.val = 0 + k.val * (0 + 1); omega)

/-! ## The blocks the body reads -/

/-- The printed index maps over the grid: the first operand's and the result's blocks move down with the point, the
    second operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first operand's block at point `t`, entry `(p, k)`, is the array's entry `(1024 t + p, k)`. -/
theorem xblk_apply (c : Dev nD) (t : Fin cfg0.N) (p : Fin 1024) (k : Fin 256) (r : Fin 16384) (hr : r.val = t.val * 1024 + p.val) :
    (iblk m c 0 t : Vec Ideal S1024x256 .f32) (ix2 p k) = (V m c main_arg0 : S16384x256.Idx → EReal) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 1024 + 1 * p.val = r.val; rw [e0, hr]; omega
  | ⟨1, _⟩ => show win0_0.index t 1 * 256 + 1 * k.val = k.val; rw [e1]; omega

/-- The second operand's block at every point is the whole transposed array. -/
theorem wtblk_apply (c : Dev nD) (t : Fin cfg0.N) (k : Fin 256) (q : Fin 2560) :
    (iblk m c 1 t : Vec Ideal S256x2560 .f32) (ix2 k q) = (V m c main_v1 : S256x2560.Idx → EReal) (ix2 k q) := by
  obtain ⟨-, -, e2, e3, -⟩ := idx_facts t
  unfold iblk
  rw [View.read_apply]
  show V m c main_v1 _ = V m c main_v1 _
  congr 1
  funext a
  apply Fin.ext
  match a with
  | ⟨0, _⟩ => show win0_1.index t 0 * 256 + 1 * k.val = k.val; rw [e2]; omega
  | ⟨1, _⟩ => show win0_1.index t 1 * 2560 + 1 * q.val = q.val; rw [e3]; omega

/-! ## What a point writes back, and the array after the region -/

/-- The body's store is the kernel's distance form of its two loaded values, as arrays. -/
theorem pay_eq (v0 : Vec Ideal S1024x256 .f32) (v1 : Vec Ideal S256x2560 .f32) : k0_pay1 (F := Ideal) v0 v1 = viaRsqrt v0 v1 := by
  funext y
  obtain ⟨p, q, rfl⟩ : ∃ (p : Fin 1024) (q : Fin 2560), y = ix2 p q := ⟨y 0, y 1, eq_ix2 y⟩
  exact pay_apply v0 v1 p q

/-- The distance form of point `t`'s blocks at `y` is the distance form of the whole arrays at row `1024 t + y₀`, column `y₁`. -/
theorem block_value (c : Dev nD) (t : Fin cfg0.N) (y : S1024x2560.Idx) (i : S16384x2560.Idx)
    (h0 : (i 0).val = t.val * 1024 + (y 0).val) (h1 : (i 1).val = (y 1).val) :
    viaRsqrt (iblk m c 0 t : Vec Ideal S1024x256 .f32) (iblk m c 1 t : Vec Ideal S256x2560 .f32) y
      = viaRsqrt (V m c main_arg0 : S16384x256.Idx → EReal) (V m c main_v1 : S256x2560.Idx → EReal) i := by
  show viaRsqrtAt _ _ (y 0) (y 1) = viaRsqrtAt _ _ (i 0) (i 1)
  refine viaRsqrtAt_congr _ _ _ _ (y 0) (i 0) (y 1) (i 1) (fun k => xblk_apply m c t (y 0) k (i 0) h0) (fun k => ?_)
  exact (wtblk_apply m c t k (y 1)).trans
    (congrArg (V m c main_v1 : S256x2560.Idx → EReal) (congrArg (ix2 k) (Fin.ext h1.symm)))

/-- WHAT POINT `t` WRITES BACK is block `t` of the distance form of the two arrays the region finds. -/
theorem flushed_eq (c : Dev nD) (t : Fin cfg0.N) :
    (dats m 0 c).flushed 2 t = ((cfg0.win 2).blk t).view.read (Elt Ideal)
      (viaRsqrt (V m c main_arg0 : S16384x256.Idx → EReal) (V m c main_v1 : S256x2560.Idx → EReal)) := by
  show (cfg0.win 2).cut (grid0.coords t) ((dats m 0 c).after 2 t) = _
  rw [after0_2]
  unfold out0_2
  rw [View.canon_unit_zero hz]
  simp only [View.ld_unit_zero (S := S1024x256) hz, View.ld_unit_zero (S := S256x2560) hz]
  refine (congrArg _ (pay_eq (iblk m c 0 t) (iblk m c 1 t))).trans ?_
  obtain ⟨-, -, -, -, e4, e5⟩ := idx_facts t
  funext j
  refine block_value m c t j _ ?_ ?_
  · show win0_2.index t (0 : Fin 2) * 1024 + 1 * (j 0).val = t.val * 1024 + (j 0).val; rw [e4]; omega
  · show win0_2.index t (1 : Fin 2) * 2560 + 1 * (j 1).val = (j 1).val; rw [e5]; omega

/-- An index of the intermediate is in point `t`'s block iff each coordinate is in the block's range on its axis. -/
theorem mem_blk (t : Fin cfg0.N) (i : S16384x2560.Idx) :
    i ∈ ((cfg0.win 2).blk t).view.set ↔ ∀ a : Fin 2, win0_2.index t a * S1024x2560.size a ≤ (i a).val
      ∧ (i a).val < win0_2.index t a * S1024x2560.size a + S1024x2560.size a := by
  show i ∈ ((View.whole main_v2).slice (win0_2.rect t)).set ↔ _
  rw [View.set_slice_whole, Rect.mem_set_unit]
  exact Iff.rfl

/-- Every index of the intermediate is written back by some point: row `r` by point `r / 1024`. -/
theorem cover (i : S16384x2560.Idx) : ∃ t : Fin cfg0.N, (cfg0.win 2).flush t = true ∧ i ∈ ((cfg0.win 2).blk t).view.set := by
  have hi0 : (i 0).val < 16384 := (i 0).isLt
  have hi1 : (i 1).val < 2560 := (i 1).isLt
  have hN : cfg0.N = 16 := N_0
  have ht : (i 0).val / 1024 < cfg0.N := by rw [hN]; omega
  obtain ⟨-, -, -, -, e4, e5⟩ := idx_facts ⟨(i 0).val / 1024, ht⟩
  have e4' : win0_2.index ⟨(i 0).val / 1024, ht⟩ (0 : Fin 2) = (i 0).val / 1024 := e4
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4']; omega
  | ⟨1, _⟩ =>
    show win0_2.index ⟨(i 0).val / 1024, ht⟩ (1 : Fin 2) * 2560 ≤ (i 1).val ∧ (i 1).val < win0_2.index ⟨(i 0).val / 1024, ht⟩ (1 : Fin 2) * 2560 + 2560
    rw [e5]; omega

/-- THE INTERMEDIATE after the region: the distance form of `x` and the transposed, padded weights, everywhere. -/
theorem final (c : Dev nD) : (dats m 0 c).arrAt 2 cfg0.N
    = viaRsqrt (V m c main_arg0 : S16384x256.Idx → EReal) (V m c main_v1 : S256x2560.Idx → EReal) :=
  (dats m 0 c).arrAt_eq_of_cover 2 _ (fun t _ => flushed_eq m c t) cover

/-! ## The slice after the region, and the run -/

/-- The program's result buffer after the host's slice: columns `0 … 2499` of the intermediate. -/
theorem tail_eq (c : Dev nD) : Pipeline.afterTail₀ cfgs (dats m) 0 (V0 m) [hostOps1] c main_v3
    = extractStridedSlice S16384x2500 ![0, 0] (viaRsqrt (V m c main_arg0 : S16384x256.Idx → EReal) (V m c main_v1 : S256x2560.Idx → EReal))
        slices_S16384x2560_S16384x2500_0_0 := by
  unfold Pipeline.afterTail₀
  show StableHlo.after hostOps1 _ (Proc.devRef .tc main_v3) = _
  after_results
  rw [Pipeline.withArrays_arr spec0 launch0.win.arr_inj c _ _ 2, final]

/-- On real inputs the kept columns of the intermediate are the reference's distance array: column `n < 2500` of the
    transposed, padded weights is row `n` of the weights, and there the two groupings agree. -/
theorem result_eq (c : Dev nD)
    (hx : ∀ i, ∃ r : ℝ, (m ((c : Thread nD τ).loc main_arg0) : S16384x256.Idx → EReal) i = (r : EReal))
    (hw : ∀ i, ∃ r : ℝ, (m ((c : Thread nD τ).loc main_arg1) : S2500x256.Idx → EReal) i = (r : EReal)) :
    extractStridedSlice S16384x2500 ![0, 0] (viaRsqrt (V m c main_arg0 : S16384x256.Idx → EReal) (V m c main_v1 : S256x2560.Idx → EReal))
        slices_S16384x2560_S16384x2500_0_0
      = viaSqrt (m ((c : Thread nD τ).loc main_arg0) : S16384x256.Idx → EReal) (m ((c : Thread nD τ).loc main_arg1) : S2500x256.Idx → EReal) := by
  have hX : (V m c main_arg0 : S16384x256.Idx → EReal) = m ((c : Thread nD τ).loc main_arg0) := V_main_arg0 m c
  rw [hX]
  funext j
  obtain ⟨b, n, rfl⟩ : ∃ (b : Fin 16384) (n : Fin 2500), j = ix2 b n := ⟨j 0, j 1, eq_ix2 j⟩
  have hn : n.val < 2560 := by have := n.isLt; omega
  refine (slice2_axis1_apply 0 _ _ b n ⟨n.val, hn⟩ (Nat.zero_add _).symm).trans ?_
  exact viaRsqrtAt_eq_viaSqrtAt _ _ _ hx hw b n ⟨n.val, hn⟩ (fun k => wt_apply m c k n ⟨n.val, hn⟩ rfl)

/-- THE KERNEL PROGRAM'S RUN, read: on real inputs every weakly fair execution ends with the result buffer at the
    reference's distance array of the two arguments, and the arguments as they were. -/
theorem run (hx : ∀ (c : Dev nD) i, ∃ r : ℝ, (m ((c : Thread nD τ).loc main_arg0) : S16384x256.Idx → EReal) i = (r : EReal))
    (hw : ∀ (c : Dev nD) i, ∃ r : ℝ, (m ((c : Thread nD τ).loc main_arg1) : S2500x256.Idx → EReal) i = (r : EReal)) :
    θ_run defs (onTc (τ := τ) (main (F := Ideal))) ⟨m, fun _ => 0, ρ⟩ fun r => ∀ c : Dev nD,
      r.2.mem ((c : Thread nD τ).loc main_v3)
          = viaSqrt (m ((c : Thread nD τ).loc main_arg0) : S16384x256.Idx → EReal) (m ((c : Thread nD τ).loc main_arg1) : S2500x256.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans
          ((tail_eq m c).trans (result_eq m c (hx c) (hw c))),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.Dist.Kernel

end
-- ==== Proof.RefValue.lean ====
/-
  The reference program's result, read one operation at a time, is the distance array in the reference's grouping:
  at `(b, n)` the root of `max (((0 + ∑ₖ x(b,k)²) + (0 + ∑ₖ w(n,k)²)) - 2·∑ₖ x(b,k)·w(n,k)) floor`.
  The two row sums reach `(b, n)` through a column / a row broadcast, the product through `w` transposed; each of those
  index maps, composed, is "row `b` of `x`" or "row `n` of `w`" at the inner coordinate `k`.
-/
import proofs.«178733_g80247168958748_cont_9to1c4b_500_18_alg».proof.Proof.Gen.ReferenceIdeal.Read
import proofs.«178733_g80247168958748_cont_9to1c4b_500_18_alg».proof.Proof.Spec

noncomputable section

namespace Cert.Dist.Reference

open Idealize.ShloMosaic Idealize.ShloMosaic.ValueIdx Cert.ReferenceIdeal Cert.ReferenceIdeal.Read

/-- The reference's last stage is `viaSqrt` of its two arguments. -/
theorem stages_eq (x0 : (⟨S16384x256, .f32⟩ : BufTy).Contents (Elt Ideal)) (x1 : (⟨S2500x256, .f32⟩ : BufTy).Contents (Elt Ideal)) :
    val_main_v16 (F := Ideal) x0 x1 = viaSqrt x0 x1 := by
  funext i
  obtain ⟨b, n, rfl⟩ : ∃ (b : Fin 16384) (n : Fin 2500), i = ix2 b n := ⟨i 0, i 1, eq_ix2 i⟩
  -- the row of `x` the first row sum reads, through the column and its broadcast
  have e1 : ∀ k : Fin 256, idx_main_v1 (idx_main_v4 (idx_main_v6 (ix2 b n))) k = ix2 b k := fun k =>
    funext fun a => Fin.ext (by match a with | ⟨0, _⟩ => rfl | ⟨1, _⟩ => rfl)
  -- the row of `w` the second row sum reads, through the row and its broadcast
  have e3 : ∀ k : Fin 256, idx_main_v3 (idx_main_v5 (idx_main_v7 (ix2 b n))) k = ix2 n k := fun k =>
    funext fun a => Fin.ext (by match a with | ⟨0, _⟩ => rfl | ⟨1, _⟩ => rfl)
  -- the product's left factor is row `b` of `x`; its right factor, through the transpose, row `n` of `w`
  have el : ∀ k : Fin 256, lidx_main_v10 (ix2 b n) k = ix2 b k := fun k =>
    funext fun a => Fin.ext (by match a with | ⟨0, _⟩ => rfl | ⟨1, _⟩ => rfl)
  have er : ∀ k : Fin 256, idx_main_v9 (ridx_main_v10 (ix2 b n) k) = ix2 n k := fun k =>
    funext fun a => Fin.ext (by match a with | ⟨0, _⟩ => rfl | ⟨1, _⟩ => rfl)
  rw [val_main_v16_apply, val_main_v15_apply, val_main_v13_apply, val_main_v14_apply, val_main_cst_2_apply,
    val_main_v8_apply, val_main_v6_apply, val_main_v4_apply, val_main_v1_apply, val_main_v7_apply, val_main_v5_apply,
    val_main_v3_apply, val_main_v12_apply, val_main_v11_apply, val_main_cst_1_apply, val_main_v10_apply]
  simp only [val_main_v0_apply, val_main_v2_apply, val_main_v9_apply, val_main_cst_apply, val_main_cst_0_apply,
    e1, e3, el, er, Ideal.hostUnary_sqrt_def, Ideal.maximumf_def, Ideal.subf_def, Ideal.addf_def, Ideal.mulf_def,
    Ideal.ofBits_def]
  rfl

end Cert.Dist.Reference

end
-- ==== Proof.Finite.lean ====
/-
  The precondition read back: both input arrays hold reals.

  The predicate is the conjunction of two "all" reductions, one per array, of the entrywise test `|v| < +∞`. The
  conjunction is one exactly when both reductions are; a reduction by "and" into a single result is one exactly when every
  entry's test is; and on the extended reals `max v (-v) < +∞` excludes `v = +∞` and `v = -∞`, leaving a real.
-/
import proofs.«178733_g80247168958748_cont_9to1c4b_500_18_alg».proof.Pre_finite_inputs
import proofs.«178733_g80247168958748_cont_9to1c4b_500_18_alg».proof.Proof.Gen.Pre_finite_inputs
import Idealize.ShloMosaic.Lib.ReduceAll
import Idealize.ShloMosaic.Lib.ValueIdx
import Idealize.ShloMosaic.PureOps.Ideal.Laws

noncomputable section

namespace Cert.Dist.Finite

open Idealize.ShloMosaic Cert.Pre_finite_inputs

/-- The rank-zero shape has one index. -/
instance : Subsingleton S_.Idx := ⟨fun a b => funext fun d => d.elim0⟩

/-- The all-ones-exponent word with a clear sign and zero fraction denotes `+∞`. -/
theorem ofBits_inf : Ideal.ofBits .f32 0x7F800000#32 = (⊤ : EReal) := by
  simp [Ideal.ofBits, Ideal.ieee]

/-- An extended real whose absolute value tests below `+∞` is a real. -/
theorem real_of_test (v : EReal)
    (h : FloatOps.cmpf (F := Ideal) (φ := .f32) .olt (FloatOps.hostAbsf (F := Ideal) (φ := .f32) v) (FloatOps.ofBits .f32 0x7F800000#32) = 1#1) :
    ∃ r : ℝ, v = (r : EReal) := by
  rw [Ideal.hostAbsf_def, Ideal.cmpf_def, Ideal.absf_def, Ideal.ofBits_def, ofBits_inf] at h
  induction v using EReal.rec with
  | bot => simp [Ideal.cmp] at h
  | top => simp [Ideal.cmp] at h
  | coe r => exact ⟨r, rfl⟩

/-- Under the precondition every entry of both arrays is a real. -/
theorem reals_of_pre (a0 : FVec Ideal S16384x256 .f32) (a1 : FVec Ideal S2500x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨hl, hr⟩ := IntOp.andi_eq_one.1 h0
  exact ⟨fun i => real_of_test _ (Host.reduce_andi_all _ _ _ _ _ hl i), fun i => real_of_test _ (Host.reduce_andi_all _ _ _ _ _ hr i)⟩

end Cert.Dist.Finite

end
-- ==== Proof.lean ====
/-
  Pairwise Euclidean distances between the 16384 rows of `x` and the 2500 rows of `w` (both of length 256):
  the kernel against the reference, over the extended reals.

  The reference computes, at `(b, n)`, `√ max (((0 + ∑ₖ x(b,k)²) + (0 + ∑ₖ w(n,k)²)) - 2·∑ₖ x(b,k)·w(n,k)) floor`.
  The kernel pads `w` with zero rows to 2560, transposes it, and per block of 1024 rows of `x` computes
  `d = max ((∑ₖ x(b,k)·(-2·wt(k,n)) + ∑ₖ x(b,k)²) + ∑ₖ wt(k,n)²) floor` and stores `d · d^(-1/2)`; the columns past
  2500 are cut off afterwards. On real inputs the two squared distances are one real number (distribute `-2` over the sum),
  it is at least the floor, which is not negative, and a real `d ≥ 0` times its reciprocal root is its root. The inputs are
  real by the precondition; on infinite entries neither distributivity nor `d · d^(-1/2) = √d` would hold.

  The three frames: the two kernel programs' by their generated frame runs, the reference's by its generated run with the
  result dropped. The idealization rewrote nothing, so there is nothing to preserve.
-/
import proofs.«178733_g80247168958748_cont_9to1c4b_500_18_alg».proof.Defs
import proofs.«178733_g80247168958748_cont_9to1c4b_500_18_alg».proof.Proof.Gen.Kernel
import proofs.«178733_g80247168958748_cont_9to1c4b_500_18_alg».proof.Proof.Gen.Kernel.Skeleton
import proofs.«178733_g80247168958748_cont_9to1c4b_500_18_alg».proof.Proof.Gen.Kernel.Launch
import proofs.«178733_g80247168958748_cont_9to1c4b_500_18_alg».proof.Proof.Gen.Kernel.Points
import proofs.«178733_g80247168958748_cont_9to1c4b_500_18_alg».proof.Proof.Gen.Kernel.Frame
import proofs.«178733_g80247168958748_cont_9to1c4b_500_18_alg».proof.Proof.Gen.KernelIdeal
import proofs.«178733_g80247168958748_cont_9to1c4b_500_18_alg».proof.Proof.Gen.KernelIdeal.Skeleton
import proofs.«178733_g80247168958748_cont_9to1c4b_500_18_alg».proof.Proof.Gen.KernelIdeal.Launch
import proofs.«178733_g80247168958748_cont_9to1c4b_500_18_alg».proof.Proof.Gen.KernelIdeal.Points
import proofs.«178733_g80247168958748_cont_9to1c4b_500_18_alg».proof.Proof.Gen.KernelIdeal.Frame
import proofs.«178733_g80247168958748_cont_9to1c4b_500_18_alg».proof.Proof.Gen.ReferenceIdeal
import proofs.«178733_g80247168958748_cont_9to1c4b_500_18_alg».proof.Proof.Gen.Pre_finite_inputs
import proofs.«178733_g80247168958748_cont_9to1c4b_500_18_alg».proof.Proof.Gen.ReferenceIdeal.Run
import proofs.«178733_g80247168958748_cont_9to1c4b_500_18_alg».proof.Proof.Gen.ReferenceIdeal.Read
import proofs.«178733_g80247168958748_cont_9to1c4b_500_18_alg».proof.Proof.KernelValue
import proofs.«178733_g80247168958748_cont_9to1c4b_500_18_alg».proof.Proof.RefValue
import proofs.«178733_g80247168958748_cont_9to1c4b_500_18_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end at the reference's distance array of the arguments: the kernel by its run read on real inputs, the
    reference by its run read one operation at a time; the memories agree on the arguments. -/
theorem algebraic : Cert.algebraic_KernelIdeal_ReferenceIdeal := by
  intro m ρ m' ρ' hpre hagree
  have hfin := fun c => Cert.Dist.Finite.reals_of_pre _ _ (hpre c)
  refine ⟨fun c => Cert.Dist.viaSqrt
      (m ((c : Thread Cert.KernelIdeal.nD Cert.KernelIdeal.τ).loc Cert.KernelIdeal.main_arg0) : Cert.KernelIdeal.S16384x256.Idx → EReal)
      (m ((c : Thread Cert.KernelIdeal.nD Cert.KernelIdeal.τ).loc Cert.KernelIdeal.main_arg1) : Cert.KernelIdeal.S2500x256.Idx → EReal),
    Cert.Dist.Kernel.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Dist.Reference.stages_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
